-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x256 : Shape := ⟨2, ![4096, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S16384x256 .f32) (main_arg1 : FVec F S4096x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S16384x256 : Shape := ⟨2, ![16384, 256]⟩
abbrev S4096x256 : Shape := ⟨2, ![4096, 256]⟩
abbrev S16384x4096 : Shape := ⟨2, ![16384, 4096]⟩
abbrev S512x256 : Shape := ⟨2, ![512, 256]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S16384x4096, .f32⟩
  | .local _ .vmem, ⟨0, _⟩ => ⟨S512x256, .f32⟩
  | .local _ .vmem, ⟨1, _⟩ => ⟨S512x256, .f32⟩
  | .local _ .vmem, ⟨2, _⟩ => ⟨S4096x256, .f32⟩
  | .local _ .vmem, ⟨3, _⟩ => ⟨S512x4096, .f32⟩
  | .local _ .vmem, ⟨4, _⟩ => ⟨S512x4096, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S4096x256_S4096x256_0_0 : ∀ a, (![0, 0] : Fin 2 → Nat) a + S4096x256.size a ≤ S4096x256.size a
  h_S4096x256 : 0 < S4096x256.numel
  reduces_S512x256_S512 : S512x256.Reduces [1] S512
  shapeCasts_S512_S512x1 : S512.ShapeCasts S512x1
  reduces_S4096x256_S4096 : S4096x256.Reduces [1] S4096
  shapeCasts_S4096_S1x4096 : S4096.ShapeCasts S1x4096
  bitsLt_bf16_f32 : FTy.bits .bf16 < FTy.bits .f32
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S16384x256.size a
  hwx0_0 : ∀ i : grid0.Coords, EltTy.bits .f32 = 32 ∨ (Rect.block (s := S16384x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S4096x256 : Shape := ⟨2, ![4096, 256]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S4096x256_S4096_d1 : S4096x256.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x256_S4096x256_S16384x4096_1_1_0_0_n_n_wf : DotDims.WF S16384x256 S4096x256 S16384x4096 [1] [1] [0] [0] [] []

variable [Facts₀]

def dot_S16384x256_S4096x256_S16384x4096_1_1_0_0_n_n : DotDims S16384x256 S4096x256 S16384x4096 where
  lhsContracting := [1]
  rhsContracting := [1]
  lhsNonContracting := [0]
  rhsNonContracting := [0]
  lhsBatch := []
  rhsBatch := []
  wf := dot_S16384x256_S4096x256_S16384x4096_1_1_0_0_n_n_wf

class Facts : Prop extends Facts₀ where

variable [Facts]
-- ==== Proof.Gauss.lean ====
/-
  The Gaussian kernel matrix of 16384 points against 4096 support vectors in dimension 256, with the squared distance
  taken through its quadratic expansion: entry `(p, q)` is `exp (−1 · max ((‖x_p‖² + ‖s_q‖²) − 2 · ⟨x_p, s_q⟩) 0)`, the
  clamp at zero absorbing a negative rounding of the expansion. It is a function of row `p` of the points and row `q`
  of the support alone, which is what lets a tile of the matrix be computed from a tile of rows. The three constants
  `−1`, `2` and `0` are kept as the words both programs print for them: the same word on both sides is never evaluated.
  Everything is read on the extended reals; no step below uses a law that fails at an infinity (only sums, products
  and one difference in the order both programs write them).
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Gauss

/-- One entry from the two squared norms `xx`, `ss` and the inner product `xs`: the expansion, clamped, negated, exponentiated. -/
def entry (xx ss xs : EReal) : EReal :=
  Ideal.exp (Ideal.ofBits .f32 0xBF800000#32 *
    max ((xx + ss) - Ideal.ofBits .f32 0x40000000#32 * xs) (Ideal.ofBits .f32 0x00000000#32))

/-- One entry of the matrix from a row `a` of the points and a row `b` of the support. -/
def ofRows (a b : Fin 256 → EReal) : EReal :=
  entry (∑ k : Fin 256, a k * a k) (∑ k : Fin 256, b k * b k) (∑ k : Fin 256, a k * b k)

/-- The whole matrix: entry `i = (p, q)` from row `p` of `X` and row `q` of `S`. -/
def gram (X : (⟨2, ![16384, 256]⟩ : Shape).Idx → EReal) (S : (⟨2, ![4096, 256]⟩ : Shape).Idx → EReal) :
    (⟨2, ![16384, 4096]⟩ : Shape).Idx → EReal := fun i =>
  ofRows (fun k => X (ix2 ⟨(i 0).val, (i 0).isLt⟩ k)) (fun k => S (ix2 ⟨(i 1).val, (i 1).isLt⟩ k))

end Cert.Gauss

end
-- ==== Proof.LibColumn.lean ====
/-
  Column forms of two layout operations read at an index given by coordinates: what a row reduction kept as a
  column (`sum(axis=-1, keepdims=True)`) needs. A vector of length `a` recast as an `a × 1` column reads, at
  `(i, u)`, the vector at `i`; an `a × 1` column broadcast to `a × b` reads, at `(p, c)`, the column's entry of row `p`.
  Both are the library's general statements (a shape cast keeps the row-major position; a broadcast reads `0` on the
  operand's unit axes) with the coordinates' arithmetic done once.
-/
import Idealize.ShloMosaic.Lib.Pipeline.Value
import Idealize.ShloMosaic.Lib.ValueIdx

namespace Cert.Column

open Idealize.ShloMosaic Idealize.ShloMosaic.ValueIdx

variable {α : Type}

/-- A vector `[a]` recast as a column `[a, 1]` reads, at `(i, u)`, the vector at `i`: the row-major position of
    `(i, u)` in an `a × 1` array is `i · 1 + u = i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`: the row coordinate is kept
    (for `a = 1` it is `0` anyway) and the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column
-- ==== Proof.Body.lean ====
/-
  What the kernel's body stores, read at one entry `(p, q)` of the 512 × 4096 tile it writes: from the tile's
  512 × 256 block of points `x0` and the whole 4096 × 256 support `x1` it forms the rows' sums of squares (one kept
  as a column, the other as a row, each spread over the tile), the 512 × 4096 product `x0 · x1ᵀ` on the matrix unit
  from the operands narrowed to sixteen bits — the identity on the extended reals — into a zero accumulator, and then
  the expansion, the clamp, the sign and the exponential entry by entry. So the stored entry is `Gauss.ofRows` of row
  `p` of `x0` and row `q` of `x1`.
-/
import proofs.«123453_j65481071409526_1_alg».proof.Proof.Gen.KernelIdeal.Skeleton
import proofs.«123453_j65481071409526_1_alg».proof.Proof.Gauss
import proofs.«123453_j65481071409526_1_alg».proof.Proof.LibColumn
import Idealize.ShloMosaic.Lib.ValueIdx
import Idealize.ShloMosaic.Lib.ValueLayout
import Idealize.ShloMosaic.PureOps.Ideal.Laws

noncomputable section

open scoped BigOperators

namespace Cert.Gauss.Body

open Cert.KernelIdeal Cert.KernelIdeal.Gen Idealize.ShloMosaic Idealize.ShloMosaic.ValueIdx

/-- A row sum of the block of points, kept as a column and spread over the tile's columns, read at `(p, q)`: the sum
    over row `p`. -/
theorem colSum_apply (v : FVec Ideal S512x256 .f32) (h : S512x256.Reduces [1] S512) (hφ : FKind.Formats .f32)
    (hacc : (0x00000000#32 : BitVec 32) = FKind.add.neutral .f32 hφ) (hc : S512.ShapeCasts S512x1)
    (hb : S512x1.Broadcasts S512x4096) (p : Fin 512) (q : Fin 4096) :
    broadcastTo S512x4096 (shapeCast S512x1 (multiReduction .add [1] S512 v 0x00000000#32 h hφ hacc) hc) hb (ix2 p q)
      = ∑ k : Fin 256, v (ix2 p k) := by
  refine (Cert.Column.broadcastTo_a1_ab_apply _ hb p q).trans ?_
  refine (Cert.Column.shapeCast_a_a1_apply _ hc p 0).trans ?_
  refine (Ideal.multiReduction_add_single v 0x00000000#32 h hφ hacc (ix1 p)).trans ?_
  exact Finset.sum_congr rfl fun k _ => congrArg v (funext fun a => Fin.ext (by
    match a with | ⟨0, _⟩ => rfl | ⟨1, _⟩ => rfl))

/-- A row sum of the support, kept as a row and spread over the tile's rows, read at `(p, q)`: the sum over row `q`. -/
theorem rowSum_apply (w : FVec Ideal S4096x256 .f32) (h : S4096x256.Reduces [1] S4096) (hφ : FKind.Formats .f32)
    (hacc : (0x00000000#32 : BitVec 32) = FKind.add.neutral .f32 hφ) (hc : S4096.ShapeCasts S1x4096)
    (hb : S1x4096.Broadcasts S512x4096) (p : Fin 512) (q : Fin 4096) :
    broadcastTo S512x4096 (shapeCast S1x4096 (multiReduction .add [1] S4096 w 0x00000000#32 h hφ hacc) hc) hb (ix2 p q)
      = ∑ k : Fin 256, w (ix2 q k) := by
  refine (broadcastTo_1b_ab_apply _ hb p q).trans ?_
  refine (shapeCast_a_1a_apply _ hc 0 q).trans ?_
  refine (Ideal.multiReduction_add_single w 0x00000000#32 h hφ hacc (ix1 q)).trans ?_
  exact Finset.sum_congr rfl fun k _ => congrArg w (funext fun a => Fin.ext (by
    match a with | ⟨0, _⟩ => rfl | ⟨1, _⟩ => rfl))

/-! The product: both operands are contracted over their second axis, so at `(p, q)` the left factor runs over row
    `p` of the block and the right over row `q` of the support. -/

theorem lhs_row (i : S512x4096.Idx) (c : dot_S512x256_S4096x256_S512x4096_1_1_0_0_n_n.contr.Idx) :
    (dot_S512x256_S4096x256_S512x4096_1_1_0_0_n_n.lhsIdx i c 0).val = (i 0).val := by
  unfold DotDims.lhsIdx
  rw [dif_neg (show ¬(0 : Fin S512x256.rank) ∈ dot_S512x256_S4096x256_S512x4096_1_1_0_0_n_n.lhsBatch by decide), dif_pos (show (0 : Fin S512x256.rank) ∈ dot_S512x256_S4096x256_S512x4096_1_1_0_0_n_n.lhsNonContracting by decide)]
  rfl
theorem lhs_col (i : S512x4096.Idx) (c : dot_S512x256_S4096x256_S512x4096_1_1_0_0_n_n.contr.Idx) :
    (dot_S512x256_S4096x256_S512x4096_1_1_0_0_n_n.lhsIdx i c 1).val = (c ⟨0, by decide⟩).val :=
  dot_S512x256_S4096x256_S512x4096_1_1_0_0_n_n.lhsIdx_val_of_single rfl i c
theorem rhs_row (i : S512x4096.Idx) (c : dot_S512x256_S4096x256_S512x4096_1_1_0_0_n_n.contr.Idx) :
    (dot_S512x256_S4096x256_S512x4096_1_1_0_0_n_n.rhsIdx i c 0).val = (i 1).val := by
  unfold DotDims.rhsIdx
  rw [dif_neg (show ¬(0 : Fin S4096x256.rank) ∈ dot_S512x256_S4096x256_S512x4096_1_1_0_0_n_n.rhsBatch by decide), dif_pos (show (0 : Fin S4096x256.rank) ∈ dot_S512x256_S4096x256_S512x4096_1_1_0_0_n_n.rhsNonContracting by decide)]
  rfl
theorem rhs_col (i : S512x4096.Idx) (c : dot_S512x256_S4096x256_S512x4096_1_1_0_0_n_n.contr.Idx) :
    (dot_S512x256_S4096x256_S512x4096_1_1_0_0_n_n.rhsIdx i c 1).val = (c ⟨0, by decide⟩).val :=
  dot_S512x256_S4096x256_S512x4096_1_1_0_0_n_n.rhsIdx_val_of_single rfl i c

/-- The matrix unit's product into a zero accumulator, read at `(p, q)`: the inner product of row `p` of the left
    operand with row `q` of the right. -/
theorem cross_apply (a : FVec Ideal S512x256 .bf16) (b : FVec Ideal S4096x256 .bf16) (p : Fin 512) (q : Fin 4096) :
    matmul dot_S512x256_S4096x256_S512x4096_1_1_0_0_n_n none a b (constant S512x4096 .f32 0x00000000#32) (ix2 p q)
      = ∑ k : Fin 256, a (ix2 p k) * b (ix2 q k) := by
  refine (Ideal.matmul_constant_zero_apply dot_S512x256_S4096x256_S512x4096_1_1_0_0_n_n none a b (ix2 p q)).trans ?_
  rw [← Equiv.sum_comp (contrEquiv1 dot_S512x256_S4096x256_S512x4096_1_1_0_0_n_n 256 rfl rfl).symm]
  refine Finset.sum_congr rfl fun k _ => ?_
  have hk := contrEquiv1_symm_val dot_S512x256_S4096x256_S512x4096_1_1_0_0_n_n 256 rfl rfl k
  have el : dot_S512x256_S4096x256_S512x4096_1_1_0_0_n_n.lhsIdx (ix2 p q) ((contrEquiv1 dot_S512x256_S4096x256_S512x4096_1_1_0_0_n_n 256 rfl rfl).symm k) = ix2 p k := funext fun ax => Fin.ext (by
    match ax with
    | ⟨0, _⟩ => exact lhs_row _ _
    | ⟨1, _⟩ => exact (lhs_col _ _).trans hk)
  have er : dot_S512x256_S4096x256_S512x4096_1_1_0_0_n_n.rhsIdx (ix2 p q) ((contrEquiv1 dot_S512x256_S4096x256_S512x4096_1_1_0_0_n_n 256 rfl rfl).symm k) = ix2 q k := funext fun ax => Fin.ext (by
    match ax with
    | ⟨0, _⟩ => exact rhs_row _ _
    | ⟨1, _⟩ => exact (rhs_col _ _).trans hk)
  rw [el, er]

/-- The stored tile at `(p, q)` is the Gaussian kernel of row `p` of the block of points and row `q` of the support. -/
theorem pay_apply (x0 : FVec Ideal S512x256 .f32) (x1 : FVec Ideal S4096x256 .f32) (p : Fin 512) (q : Fin 4096) :
    k0_pay1 (F := Ideal) x0 x1 (ix2 p q) = Cert.Gauss.ofRows (fun k => x0 (ix2 p k)) (fun k => x1 (ix2 q k)) := by
  unfold k0_pay1
  exact congr (congr (congrArg Cert.Gauss.entry
      (colSum_apply (mulf x0 x0) reduces_S512x256_S512 (.inl rfl) rfl shapeCasts_S512_S512x1 broadcasts_S512x1_S512x4096 p q))
      (rowSum_apply (mulf x1 x1) reduces_S4096x256_S4096 (.inl rfl) rfl shapeCasts_S4096_S1x4096 broadcasts_S1x4096_S512x4096 p q))
    (cross_apply (truncf .bf16 x0 bitsLt_bf16_f32) (truncf .bf16 x1 bitsLt_bf16_f32) p q)

end Cert.Gauss.Body

end
-- ==== Proof.Tiles.lean ====
/-
  From tiles to the matrix. The grid has 32 points; point `t` reads rows `512·t … 512·t + 511` of the points and
  the whole support, and writes rows `512·t … 512·t + 511` of the result, all 4096 columns. Entry `(p, q)` of the tile
  written at `t` is the Gaussian kernel of row `p` of that block of points and row `q` of the support, that is entry
  `(512·t + p, q)` of `Gauss.gram` of the two argument arrays: the tile is a restriction of one whole-array function.
  Every row `r` of the result lies in the tile of point `r / 512`, so after the run the result array is `Gauss.gram`.
-/
import proofs.«123453_j65481071409526_1_alg».proof.Proof.Gen.KernelIdeal.Value
import proofs.«123453_j65481071409526_1_alg».proof.Proof.Body
import Idealize.ShloMosaic.Lib.Pipeline.Value
import Idealize.ShloMosaic.Lib.ValueIdx

noncomputable section

open scoped BigOperators

namespace Cert.Gauss.Tiles

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block each window is on at point `t`: the points' and the result's row block `t`, column block `0`; the
    support's one block. Decided over the 32 points. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the Gaussian kernel matrix of the two argument arrays. -/
theorem flushed_eq (c : Dev nD) (t : Fin cfg0.N) :
    (dats m 0 c).flushed 2 t
      = ((cfg0.win 2).blk t).view.read (Elt Ideal) (Cert.Gauss.gram (V m c main_arg0) (V m c main_arg1)) := by
  rw [Value.flushed2]
  unfold out0_2
  rw [View.canon_unit_zero origin]
  simp only [View.ld_unit_zero (S := S512x256) origin, View.ld_unit_zero (S := S4096x256) origin]
  obtain ⟨e00, e01, e10, e11, e20, e21⟩ := tile_index t
  funext j
  obtain ⟨p, q, rfl⟩ : ∃ (p : Fin 512) (q : Fin 4096), j = ix2 p q := ⟨j 0, j 1, eq_ix2 j⟩
  show k0_pay1 (iblk m c 0 t) (iblk m c 1 t) (ix2 p q)
    = Cert.Gauss.gram (V m c main_arg0) (V m c main_arg1) (((cfg0.win 2).blk t).view.emb (ix2 p q))
  refine (Cert.Gauss.Body.pay_apply (iblk m c 0 t) (iblk m c 1 t) p q).trans ?_
  show Cert.Gauss.ofRows _ _ = Cert.Gauss.ofRows _ _
  have hp : p.val < 512 := p.isLt
  have hq : q.val < 4096 := q.isLt
  refine congr (congrArg Cert.Gauss.ofRows (funext fun k => ?_)) (funext fun k => ?_)
  · show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 256 + 1 * k.val = k.val
      omega
  · show V m c main_arg1 (((cfg0.win 1).blk t).view.emb (ix2 q k)) = V m c main_arg1 _
    refine congrArg (V m c main_arg1) (funext fun a => Fin.ext ?_)
    match a with
    | ⟨0, _⟩ =>
      show win0_1.index t (0 : Fin 2) * 4096 + 1 * q.val = win0_2.index t (1 : Fin 2) * 4096 + 1 * q.val
      omega
    | ⟨1, _⟩ =>
      show win0_1.index t (1 : Fin 2) * 256 + 1 * k.val = k.val
      omega

/-- An index of the result is in point `t`'s tile iff each coordinate is in the tile's range on its axis. -/
theorem mem_tile (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- Row `r` of the result is in the tile of point `r / 512`. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 32 := N_0
  let t : Fin cfg0.N := ⟨(i 0).val / 512, by rw [hN]; omega⟩
  obtain ⟨-, -, -, -, e20, e21⟩ := tile_index t
  have ht : t.val = (i 0).val / 512 := rfl
  refine ⟨t, flush0_2 t, ?_⟩
  rw [mem_tile]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-- After the run the result array is the Gaussian kernel matrix of the two argument arrays. -/
theorem final (c : Dev nD) :
    (dats m 0 c).arrAt 2 cfg0.N
      = Cert.Gauss.gram (m ((c : Thread nD τ).loc main_arg0)) (m ((c : Thread nD τ).loc main_arg1)) :=
  (dats m 0 c).arrAt_eq_of_cover 2 (Cert.Gauss.gram (V m c main_arg0) (V m c main_arg1))
    (fun t _ => flushed_eq m c t) covered

/-- The kernel's run, read: the result at the Gaussian kernel matrix of the arguments, the arguments unchanged. -/
theorem run : θ_run defs (onTc (τ := τ) (main (F := Ideal))) ⟨m, fun _ => 0, ρ⟩ fun r => ∀ c : Dev nD,
      r.2.mem ((c : Thread nD τ).loc main_v0)
        = Cert.Gauss.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Gauss.Tiles

end
-- ==== Proof.Reference.lean ====
/-
  The reference computes the Gaussian kernel matrix: its host program — the two row sums of squares, the product
  `X · Sᵀ` as one `dot_general`, the expansion `(‖x‖² + ‖s‖²) − 2 · ⟨x, s⟩`, the clamp at zero, the sign and the
  exponential — read one operation at a time at an index `i = (p, q)` is `Gauss.ofRows` of row `p` of the points and
  row `q` of the support. The host sums start from the literal zero, which is the extended real `0`; nothing else is
  evaluated.
-/
import proofs.«123453_j65481071409526_1_alg».proof.Proof.Gen.ReferenceIdeal.Read
import proofs.«123453_j65481071409526_1_alg».proof.Proof.Gauss

noncomputable section

open scoped BigOperators

namespace Cert.Gauss.Reference

open Cert.ReferenceIdeal Cert.ReferenceIdeal.Gen Cert.ReferenceIdeal.Read
open Idealize.ShloMosaic Idealize.ShloMosaic.ValueIdx

/-- The points' row the reference's sum of squares reads for entry `i`, through its two broadcasts: row `i 0`. -/
theorem sqRow_points (i : S16384x4096.Idx) (k : Fin 256) :
    idx_main_v1 (idx_main_v2 (idx_main_v7 i)) k = ix2 ⟨(i 0).val, (i 0).isLt⟩ k :=
  funext fun a => Fin.ext (by match a with | ⟨0, _⟩ => rfl | ⟨1, _⟩ => rfl)

/-- The support's row its sum of squares reads for entry `i`: row `i 1`. -/
theorem sqRow_support (i : S16384x4096.Idx) (k : Fin 256) :
    idx_main_v4 (idx_main_v6 (idx_main_v8 i)) k = ix2 ⟨(i 1).val, (i 1).isLt⟩ k :=
  funext fun a => Fin.ext (by match a with | ⟨0, _⟩ => rfl | ⟨1, _⟩ => rfl)

/-- The product's left factor at contraction index `k`: the points at `(i 0, k)`. -/
theorem dotRow_points (i : S16384x4096.Idx) (k : Fin 256) : lidx_main_v5 i k = ix2 ⟨(i 0).val, (i 0).isLt⟩ k :=
  funext fun a => Fin.ext (by match a with | ⟨0, _⟩ => rfl | ⟨1, _⟩ => rfl)

/-- Its right factor: the support at `(i 1, k)` (the contraction is over the second axis of both operands). -/
theorem dotRow_support (i : S16384x4096.Idx) (k : Fin 256) : ridx_main_v5 i k = ix2 ⟨(i 1).val, (i 1).isLt⟩ k :=
  funext fun a => Fin.ext (by match a with | ⟨0, _⟩ => rfl | ⟨1, _⟩ => rfl)

/-- The reference's result is the Gaussian kernel matrix of its two arguments. -/
theorem result_eq (X : (⟨S16384x256, .f32⟩ : BufTy).Contents (Elt Ideal)) (S : (⟨S4096x256, .f32⟩ : BufTy).Contents (Elt Ideal)) :
    val_main_v17 (F := Ideal) X S = Cert.Gauss.gram X S := by
  funext i
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v5_apply, val_main_v9_apply, val_main_v7_apply, val_main_v2_apply, val_main_v1_apply,
    val_main_v8_apply, val_main_v6_apply, val_main_v4_apply]
  simp only [val_main_cst_apply, val_main_cst_0_apply, val_main_v0_apply, val_main_v3_apply, sqRow_points, sqRow_support,
    dotRow_points, dotRow_support, Cert.Gauss.gram, Cert.Gauss.ofRows, Cert.Gauss.entry, Ideal.ofBits_def, Ideal.mulf_def, Ideal.addf_def,
    Ideal.subf_def, Ideal.maximumf_def, Ideal.hostUnary_exp_def, Ideal.ofBits_zero_f32, zero_add]
  rfl

end Cert.Gauss.Reference

end
-- ==== Proof.lean ====
/-
  The tiled Gaussian-kernel matrix against its plain reference, over the extended reals.
  Both programs compute, for 16384 points `x_p` and 4096 support vectors `s_q` in dimension 256, the matrix
  `exp (−1 · max ((‖x_p‖² + ‖s_q‖²) − 2 · ⟨x_p, s_q⟩) 0)`: the squared distance by its quadratic expansion, clamped at
  zero. The kernel does it tile by tile — 32 grid points, each taking 512 rows of the points and the whole support,
  the inner products on the matrix unit from operands narrowed to sixteen bits, which on the extended reals is the
  identity — and the reference in one piece with a single `dot_general`. An entry depends only on one row of each
  argument (`Gauss.ofRows`), so each tile is a restriction of the one whole-array function `Gauss.gram`
  (Proof/Body.lean, Proof/Tiles.lean), and the reference's operations read at an index give the same function
  (Proof/Reference.lean). The two sides write the sums, the products and the one difference in the same order, and a
  row sum started from the literal zero is the sum itself, so no law that fails at an infinity is used and the
  finiteness of the inputs is never opened. The idealization rewrote nothing, so `preserves` has no conjunct.
  The three frames are the generated ones: the kernel's at both instances, and the reference's run with its value
  dropped.
-/
import proofs.«123453_j65481071409526_1_alg».proof.Defs
import proofs.«123453_j65481071409526_1_alg».proof.Proof.Gen.Kernel
import proofs.«123453_j65481071409526_1_alg».proof.Proof.Gen.Kernel.Skeleton
import proofs.«123453_j65481071409526_1_alg».proof.Proof.Gen.Kernel.Launch
import proofs.«123453_j65481071409526_1_alg».proof.Proof.Gen.Kernel.Points
import proofs.«123453_j65481071409526_1_alg».proof.Proof.Gen.Kernel.Frame
import proofs.«123453_j65481071409526_1_alg».proof.Proof.Gen.KernelIdeal
import proofs.«123453_j65481071409526_1_alg».proof.Proof.Gen.KernelIdeal.Skeleton
import proofs.«123453_j65481071409526_1_alg».proof.Proof.Gen.KernelIdeal.Launch
import proofs.«123453_j65481071409526_1_alg».proof.Proof.Gen.KernelIdeal.Points
import proofs.«123453_j65481071409526_1_alg».proof.Proof.Gen.KernelIdeal.Frame
import proofs.«123453_j65481071409526_1_alg».proof.Proof.Gen.ReferenceIdeal
import proofs.«123453_j65481071409526_1_alg».proof.Proof.Gen.Pre_finite_inputs
import proofs.«123453_j65481071409526_1_alg».proof.Proof.Gen.KernelIdeal.Value
import proofs.«123453_j65481071409526_1_alg».proof.Proof.Gen.ReferenceIdeal.Run
import proofs.«123453_j65481071409526_1_alg».proof.Proof.Gen.ReferenceIdeal.Read
import proofs.«123453_j65481071409526_1_alg».proof.Proof.Tiles
import proofs.«123453_j65481071409526_1_alg».proof.Proof.Reference
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the points and the support, the kernel's result array ends at `Gauss.gram` of them
    (the tiles cover the matrix) and the reference's at its composed term, which is the same function read index by
    index. -/
theorem algebraic : Cert.algebraic_KernelIdeal_ReferenceIdeal := by
  intro m ρ m' ρ' _ hagree
  refine ⟨_, Cert.Gauss.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v17_eq _ _).trans (Cert.Gauss.Reference.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
